-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S50000x1 : Shape := ⟨2, ![50000, 1]⟩
abbrev S128x128 : Shape := ⟨2, ![128, 128]⟩
abbrev S128 : Shape := ⟨1, ![128]⟩
abbrev S2x500000 : Shape := ⟨2, ![2, 500000]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S500000x128 .f32) (main_arg1 : FVec F S50000x1 .f32) (main_arg2 : FVec F S128x128 .f32) (main_arg3 : FVec F S128 .f32) (main_arg4 : IVec S2x500000 32) (main_arg5 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S500000x128 : Shape := ⟨2, ![500000, 128]⟩
abbrev S50000x1 : Shape := ⟨2, ![50000, 1]⟩
abbrev S128x128 : Shape := ⟨2, ![128, 128]⟩
abbrev S128 : Shape := ⟨1, ![128]⟩
abbrev S2x500000 : Shape := ⟨2, ![2, 500000]⟩
abbrev S500000 : Shape := ⟨1, ![500000]⟩
abbrev S1x500000 : Shape := ⟨2, ![1, 500000]⟩
abbrev S_ : Shape := ⟨0, ![]⟩
abbrev S50000x128 : Shape := ⟨2, ![50000, 128]⟩
abbrev S500000x1 : Shape := ⟨2, ![500000, 1]⟩
abbrev S1x128 : Shape := ⟨2, ![1, 128]⟩
abbrev S5000x128 : Shape := ⟨2, ![5000, 128]⟩

abbrev nBuf : Space → Nat
  | .hbm => 38
  | .vmem => 8
  | .smem => 0
  | _ => 0

abbrev bufTy : (tb : Table) → Fin (tcTables nBuf tb) → BufTy
  | .hbm, ⟨0, _⟩ => ⟨S500000x128, .f32⟩
  | .hbm, ⟨1, _⟩ => ⟨S50000x1, .f32⟩
  | .hbm, ⟨2, _⟩ => ⟨S128x128, .f32⟩
  | .hbm, ⟨3, _⟩ => ⟨S128, .f32⟩
  | .hbm, ⟨4, _⟩ => ⟨S2x500000, .i32⟩
  | .hbm, ⟨5, _⟩ => ⟨S500000, .i32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .f32⟩
  | .hbm, ⟨11, _⟩ => ⟨S500000x128, .f32⟩
  | .hbm, ⟨12, _⟩ => ⟨S500000x128, .f32⟩
  | .hbm, ⟨13, _⟩ => ⟨S_, .f32⟩
  | .hbm, ⟨14, _⟩ => ⟨S50000x128, .f32⟩
  | .hbm, ⟨15, _⟩ => ⟨S500000x1, .i32⟩
  | .hbm, ⟨16, _⟩ => ⟨S50000x128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S128x128, .bf16⟩
  | .hbm, ⟨36, _⟩ => ⟨S1x128, .f32⟩
  | .hbm, ⟨37, _⟩ => ⟨S500000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000x128 : S_.BroadcastsInDim S500000x128 (![] : Fin 0 → Fin S500000x128.rank)
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  gather_S500000x128_S500000x1_S500000x128_1_0_n_n_0_1_1128_wf : GatherDims.WF S500000x128 S500000x1 S500000x128 [1] [0] [] [0] [] 1 ![1, 128]
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S500000x128.size a
  hwx0_4 : ∀ i : grid0.Coords, EltTy.bits .f32 = 32 ∨ (Rect.block (s := S500000x128) S5000x128.size (cc0_transform_4 i) (hinb0_4 i)).WholeWords (EltTy.packing .f32)

variable [Facts₀]

def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x128 : Shape := ⟨2, ![500000, 128]⟩
abbrev S50000x1 : Shape := ⟨2, ![50000, 1]⟩
abbrev S128x128 : Shape := ⟨2, ![128, 128]⟩
abbrev S128 : Shape := ⟨1, ![128]⟩
abbrev S2x500000 : Shape := ⟨2, ![2, 500000]⟩
abbrev S500000 : Shape := ⟨1, ![500000]⟩
abbrev S1x500000 : Shape := ⟨2, ![1, 500000]⟩
abbrev S_ : Shape := ⟨0, ![]⟩
abbrev S50000x128 : Shape := ⟨2, ![50000, 128]⟩
abbrev S500000x1 : Shape := ⟨2, ![500000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S50000x1, .f32⟩
  | .hbm, ⟨2, _⟩ => ⟨S128x128, .f32⟩
  | .hbm, ⟨3, _⟩ => ⟨S128, .f32⟩
  | .hbm, ⟨4, _⟩ => ⟨S2x500000, .i32⟩
  | .hbm, ⟨5, _⟩ => ⟨S500000, .i32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .f32⟩
  | .hbm, ⟨11, _⟩ => ⟨S500000x128, .f32⟩
  | .hbm, ⟨12, _⟩ => ⟨S500000x128, .f32⟩
  | .hbm, ⟨13, _⟩ => ⟨S_, .f32⟩
  | .hbm, ⟨14, _⟩ => ⟨S50000x128, .f32⟩
  | .hbm, ⟨15, _⟩ => ⟨S500000x1, .i32⟩
  | .hbm, ⟨16, _⟩ => ⟨S50000x128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S500000x128, .f32⟩
  | .hbm, ⟨36, _⟩ => ⟨S128x128, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000x128 : S_.BroadcastsInDim S500000x128 (![] : Fin 0 → Fin S500000x128.rank)
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  gather_S500000x128_S500000x1_S500000x128_1_0_n_n_0_1_1128_wf : GatherDims.WF S500000x128 S500000x1 S500000x128 [1] [0] [] [0] [] 1 ![1, 128]
  dot_S500000x128_S128x128_S500000x128_1_0_0_1_n_n_wf : DotDims.WF S500000x128 S128x128 S500000x128 [1] [0] [0] [1] [] []

variable [Facts₀]

def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.CombinePayload.lean ====
/-
  The kernel body's arithmetic, read one entry at a time on the extended reals.

  One grid point loads a block `N` of 5000 gathered node rows, the matching block `E` of 5000 gathered edge rows,
  the 128 × 128 weight matrix `W` and the bias row `b`, and stores the block whose entry (p, q) is

      ∑ k, (N[p, k] − max(E[p, k], 0)) · W[q, k]  +  b[0, q].

  The narrowing of the difference to bf16 is the identity on the extended reals, the matrix unit's product into a
  zero accumulator is the plain sum over the contracted axis (axis 1 of both operands), and the bias row is
  broadcast down the 5000 rows.
-/
import proofs.«108216_j9801115369511_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Combine

open Cert.KernelIdeal Cert.KernelIdeal.Gen Idealize.ShloMosaic Idealize.ShloMosaic.ValueIdx

/-- The zero the rectifier compares against: the word `0x00000000` read as an extended real. -/
abbrev zeroWord : EReal := Ideal.ofBits .f32 0x00000000#32

/-! ## The product's operand indices: output entry (p, q) at contraction position k reads N[p, k] and W[q, k] -/

theorem lhs_axis0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem lhs_axis1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
theorem rhs_axis0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem rhs_axis1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- The matrix product into a zero accumulator, at entry (p, q): the sum over the 128 contraction positions of the
    left operand's row p times the right operand's ROW q (both operands are contracted along their axis 1). -/
theorem matmul_entry (l : FVec Ideal S5000x128 .bf16) (r : FVec Ideal S128x128 .bf16) (p : Fin 5000) (q : Fin 128) :
    matmul dot_S5000x128_S128x128_S5000x128_1_1_0_0_n_n none l r (constant (F := Ideal) S5000x128 .f32 0x00000000#32) (ix2 p q)
      = ∑ k : Fin 128, l (ix2 p k) * r (ix2 q k) := by
  simp only [matmul]
  rw [Ideal.matmul_constant_zero_apply, ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx (ix2 p q) ((ValueIdx.contrEquiv1 dot_S5000x128_S128x128_S5000x128_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_1_0_0_n_n.rhsIdx (ix2 p q) ((ValueIdx.contrEquiv1 dot_S5000x128_S128x128_S5000x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-- THE BODY'S STORED VALUE AT (p, q). -/
theorem stored_entry (x0 x1 : Vec Ideal S5000x128 .f32) (x2 : Vec Ideal S128x128 .bf16) (x3 : Vec Ideal S1x128 .f32)
    (p : Fin 5000) (q : Fin 128) :
    k0_pay1 (F := Ideal) x0 x1 x2 x3 (ix2 p q)
      = (∑ k : Fin 128, (x0 (ix2 p k) - max (x1 (ix2 p k)) zeroWord) * x2 (ix2 q k)) + x3 (ix2 (0 : Fin 1) q) := by
  unfold k0_pay1
  rw [addf_apply]
  refine congrArg₂ (· + ·) ?_ ?_
  · refine (matmul_entry _ _ p q).trans ?_
    refine Finset.sum_congr rfl fun k _ => ?_
    simp only [shapeCast_self]
    rfl
  · rw [shapeCast_self]
    exact broadcastTo_1b_ab_apply x3 broadcasts_S1x128_S5000x128 p q

end Cert.KernelIdeal.Combine

end
-- ==== Proof.CombineLaunched.lean ====
/-
  Names, at their literal types, for the arrays the proof speaks of: the program's arguments as launched, and the
  four arrays the kernel's grid reads — the gathered node sums, the gathered edge rows, the weight matrix and the
  bias row — as the kernel finds them after the host operations that precede it.
-/
import proofs.«108216_j9801115369511_1_alg».proof.Proof.Gen.KernelIdeal.Frame
import Idealize.ShloMosaic.PureOps.Ideal

noncomputable section

namespace Cert.KernelIdeal.Combine

open Cert.KernelIdeal Cert.KernelIdeal.Gen Idealize.ShloMosaic Idealize.ShloMosaic.TcCoe Idealize.SL.Sem

variable (m : (ℓ : Loc nD τ sig) → Buf (Elt Ideal) ℓ)

/-- The arguments: edge features, weight matrix, bias vector, the (source, destination) index pairs, the reverse-edge indices. -/
abbrev argEdges (c : Dev nD) : FVec Ideal S500000x128 .f32 := m ((c.tc : Thread nD τ).loc main_arg0)
abbrev argWeight (c : Dev nD) : FVec Ideal S128x128 .f32 := m ((c.tc : Thread nD τ).loc main_arg2)
abbrev argBias (c : Dev nD) : FVec Ideal S128 .f32 := m ((c.tc : Thread nD τ).loc main_arg3)
abbrev argEnds (c : Dev nD) : IVec S2x500000 32 := m ((c.tc : Thread nD τ).loc main_arg4)
abbrev argRev (c : Dev nD) : IVec S500000 32 := m ((c.tc : Thread nD τ).loc main_arg5)

/-- The four arrays the kernel is launched on, as the region finds them. -/
abbrev nodeArr (c : Dev nD) : FVec Ideal S500000x128 .f32 := V m c main_v14
abbrev edgeArr (c : Dev nD) : FVec Ideal S500000x128 .f32 := V m c main_v21
abbrev weightArr (c : Dev nD) : FVec Ideal S128x128 .bf16 := V m c main_v22
abbrev biasArr (c : Dev nD) : FVec Ideal S1x128 .f32 := V m c main_v23

end Cert.KernelIdeal.Combine

end
-- ==== Proof.CombineArray.lean ====
/-
  From the blocks to the whole array.

  The grid has 100 points; point t works on rows 5000·t … 5000·t + 4999 of the two gathered edge-sized arrays and of
  the result, and on the whole weight matrix and bias row. Writing `edgeUpdate N E W b` for the array whose entry
  (r, q) is  ∑ k, (N[r, k] − max(E[r, k], 0)) · W[q, k] + b[0, q],  every point writes back exactly its block of
  that one array, the 100 blocks tile the 500000 rows, and so the result array ends holding `edgeUpdate` of the
  four arrays the kernel was launched on.
-/
import proofs.«108216_j9801115369511_1_alg».proof.Proof.Gen.KernelIdeal.Value
import proofs.«108216_j9801115369511_1_alg».proof.Proof.CombinePayload
import proofs.«108216_j9801115369511_1_alg».proof.Proof.CombineLaunched
import Idealize.ShloMosaic.Lib.Pipeline.Value

set_option maxRecDepth 16384

noncomputable section

namespace Cert.KernelIdeal.Combine

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Entry (r, k) of an edge-sized array, r the row of `i`. -/
abbrev rowAt (i : S500000x128.Idx) (k : Fin 128) : S500000x128.Idx := fun a => match a with
  | ⟨0, _⟩ => ⟨(i 0).val, (i 0).isLt⟩
  | ⟨1, _⟩ => ⟨k.val, k.isLt⟩
/-- Entry (q, k) of the weight matrix, q the column of `i`. -/
abbrev weightAt (i : S500000x128.Idx) (k : Fin 128) : S128x128.Idx := fun a => match a with
  | ⟨0, _⟩ => ⟨(i 1).val, (i 1).isLt⟩
  | ⟨1, _⟩ => ⟨k.val, k.isLt⟩
/-- Entry (0, q) of the bias row, q the column of `i`. -/
abbrev biasAt (i : S500000x128.Idx) : S1x128.Idx := fun a => match a with
  | ⟨0, _⟩ => ⟨0, Nat.one_pos⟩
  | ⟨1, _⟩ => ⟨(i 1).val, (i 1).isLt⟩

/-- The linear update of every edge row: entry (r, q) is ∑ k, (N[r, k] − max(E[r, k], 0)) · W[q, k] + b[0, q]. -/
def edgeUpdate (N E : S500000x128.Idx → EReal) (W : S128x128.Idx → EReal) (b : S1x128.Idx → EReal) : S500000x128.Idx → EReal :=
  fun i => (∑ k : Fin 128, (N (rowAt i k) - max (E (rowAt i k)) zeroWord) * W (weightAt i k)) + b (biasAt i)

/-- The block indices, decided over the 100 points: the two edge-sized inputs and the output move down the rows
    with the point, the weight matrix and the bias row stay. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of `edgeUpdate` of the four arrays as the kernel finds them. -/
theorem flushed_eq (c : Dev nD) (t : Fin cfg0.N) :
    (dats m 0 c).flushed 4 t = ((cfg0.win 4).blk t).view.read (Elt Ideal)
      (edgeUpdate (nodeArr m c) (edgeArr m c) (weightArr m c) (biasArr m c)) := by
  rw [Value.flushed4]
  unfold out0_4
  rw [View.canon_unit_zero zero_offsets]
  simp only [View.ld_unit_zero (S := S5000x128) zero_offsets, View.ld_unit_zero (S := S128x128) zero_offsets, View.ld_unit_zero (S := S1x128) zero_offsets]
  obtain ⟨e00, e01, e10, e11, e20, e21, e30, e31, e40, e41⟩ := block_indices t
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (ix2 p q) = _
  refine (stored_entry (iblk m c 0 t) (iblk m c 1 t) (iblk m c 2 t) (iblk m c 3 t) p q).trans ?_
  have h0 : ∀ k : Fin 128, ((cfg0.win 0).blk t).view.emb (ix2 p k) = rowAt (((cfg0.win 4).blk t).view.emb (ix2 p q)) k := fun k => by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  have h1 : ∀ k : Fin 128, ((cfg0.win 1).blk t).view.emb (ix2 p k) = rowAt (((cfg0.win 4).blk t).view.emb (ix2 p q)) k := fun k => by
    funext a; apply Fin.ext
    match a with
    | ⟨0, _⟩ => show win0_1.index t (0 : Fin 2) * 5000 + 1 * p.val = win0_4.index t (0 : Fin 2) * 5000 + 1 * p.val; omega
    | ⟨1, _⟩ => show win0_1.index t (1 : Fin 2) * 128 + 1 * k.val = k.val; omega
  have h2 : ∀ k : Fin 128, ((cfg0.win 2).blk t).view.emb (ix2 q k) = weightAt (((cfg0.win 4).blk t).view.emb (ix2 p q)) k := fun k => by
    funext a; apply Fin.ext
    match a with
    | ⟨0, _⟩ => show win0_2.index t (0 : Fin 2) * 128 + 1 * q.val = win0_4.index t (1 : Fin 2) * 128 + 1 * q.val; omega
    | ⟨1, _⟩ => show win0_2.index t (1 : Fin 2) * 128 + 1 * k.val = k.val; omega
  have h3 : ((cfg0.win 3).blk t).view.emb (ix2 (0 : Fin 1) q) = biasAt (((cfg0.win 4).blk t).view.emb (ix2 p q)) := by
    funext a; apply Fin.ext
    match a with
    | ⟨0, _⟩ => show win0_3.index t (0 : Fin 2) * 1 + 1 * 0 = 0; omega
    | ⟨1, _⟩ => show win0_3.index t (1 : Fin 2) * 128 + 1 * q.val = win0_4.index t (1 : Fin 2) * 128 + 1 * q.val; omega
  show (∑ k : Fin 128, (nodeArr m c (((cfg0.win 0).blk t).view.emb (ix2 p k)) - max (edgeArr m c (((cfg0.win 1).blk t).view.emb (ix2 p k))) zeroWord) * weightArr m c (((cfg0.win 2).blk t).view.emb (ix2 q k))) + biasArr m c (((cfg0.win 3).blk t).view.emb (ix2 (0 : Fin 1) q))
    = (∑ k : Fin 128, (nodeArr m c (rowAt (((cfg0.win 4).blk t).view.emb (ix2 p q)) k) - max (edgeArr m c (rowAt (((cfg0.win 4).blk t).view.emb (ix2 p q)) k)) zeroWord) * weightArr m c (weightAt (((cfg0.win 4).blk t).view.emb (ix2 p q)) k)) + biasArr m c (biasAt (((cfg0.win 4).blk t).view.emb (ix2 p q)))
  rw [h3]
  refine congrArg₂ (· + ·) (Finset.sum_congr rfl fun k _ => ?_) rfl
  rw [h0 k, h1 k, h2 k]

/-- An index of the result array is in point `t`'s block iff each coordinate is in the block's range on its axis. -/
theorem mem_block (t : Fin cfg0.N) (i : S500000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v24).slice (win0_4.rect t)).set ↔ _
  rw [View.set_slice_whole, Rect.mem_set_unit]
  exact Iff.rfl

/-- THE BLOCKS TILE THE ARRAY: row r lies in the block of point r / 5000. -/
theorem covered (i : S500000x128.Idx) : ∃ t : Fin cfg0.N, (cfg0.win 4).flush t = true ∧ i ∈ ((cfg0.win 4).blk t).view.set := by
  have hN : cfg0.N = 100 := N_0
  have hi0 : (i 0).val < 500000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, e40, e41⟩ := block_indices t
  refine ⟨t, flush0_4 t, ?_⟩
  rw [mem_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE RESULT ARRAY after the run. -/
theorem final (c : Dev nD) :
    (dats m 0 c).arrAt 4 cfg0.N = edgeUpdate (nodeArr m c) (edgeArr m c) (weightArr m c) (biasArr m c) :=
  (dats m 0 c).arrAt_eq_of_cover 4 _ (fun t _ => flushed_eq m c t) covered

/-- The kernel's run, read: the result array at `edgeUpdate` of the four launched arrays, the arguments unchanged. -/
theorem run : θ_run defs (onTc (τ := τ) (main (F := Ideal))) ⟨m, fun _ => 0, ρ⟩ fun r => ∀ c : Dev nD,
      r.2.mem ((c : Thread nD τ).loc main_v24) = edgeUpdate (nodeArr m c) (edgeArr m c) (weightArr m c) (biasArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Combine

end
-- ==== Proof.CombineInputs.lean ====
/-
  The four arrays the kernel is launched on, as functions of the program's arguments.

  Before the kernel the program computes, on the host: the rectified edge features summed onto their destination
  nodes and gathered back along the source nodes (the same chain of operations, on the same arguments, as in the
  reference); the RAW edge features gathered along the reverse-edge indices; the weight matrix narrowed to bf16,
  which on the extended reals is the matrix itself; and the bias vector recast as a one-row matrix.
  The reference gathers the RECTIFIED edge features instead. A gather reads one entry of its operand per result
  entry, at a position that depends on the indices only, so rectifying after the gather (as the kernel body does)
  and before it (as the reference does) give the same entry.
-/
import proofs.«108216_j9801115369511_1_alg».proof.Proof.CombineLaunched
import proofs.«108216_j9801115369511_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Combine

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ)

set_option maxHeartbeats 2000000 in
/-- The gathered node sums are the reference's: the same host operations on the same arguments. -/
theorem node_eq (c : Dev nD) :
    nodeArr m c = Cert.ReferenceIdeal.Read.val_main_v14 (F := Ideal) (argEdges m c) (argEnds m c) := by
  show V m c main_v14 = _
  dsimp only [V]
  simp only [hostOps0, hostOps0_1, hostOps0_2, List.flatten_cons, List.flatten_nil, List.append_nil, List.cons_append, List.nil_append]
  after_results_simp <;> rfl

set_option maxHeartbeats 2000000 in
/-- The gathered edge rows: the raw edge features read at the reverse-edge positions. -/
theorem edge_gather (c : Dev nD) :
    edgeArr m c = Host.gather gather_S500000x128_S500000x1_S500000x128_1_0_n_n_0_1_1128 (argEdges m c)
          (Cert.ReferenceIdeal.Read.val_main_v20 (F := Ideal) (argRev m c)) := by
  show V m c main_v21 = _
  dsimp only [V]
  simp only [hostOps0, hostOps0_1, hostOps0_2, List.flatten_cons, List.flatten_nil, List.append_nil, List.cons_append, List.nil_append]
  after_results_simp <;> rfl

/-- Rectifying a gathered entry is gathering the rectified entry. -/
theorem edge_eq (c : Dev nD) (j : S500000x128.Idx) :
    max (edgeArr m c j) (Ideal.ofBits .f32 0x00000000#32)
      = Cert.ReferenceIdeal.Read.val_main_v21 (F := Ideal) (argEdges m c) (argRev m c) j := by
  rw [edge_gather]
  rfl

set_option maxHeartbeats 2000000 in
/-- The weight matrix as launched is the argument narrowed to bf16, -/
theorem weight_narrowed (c : Dev nD) : weightArr m c = truncf .bf16 (argWeight m c) bitsLt_bf16_f32 := by
  show V m c main_v22 = _
  dsimp only [V]
  simp only [hostOps0, hostOps0_1, hostOps0_2, List.flatten_cons, List.flatten_nil, List.append_nil, List.cons_append, List.nil_append]
  after_results_simp <;> rfl

/-- which on the extended reals is the argument itself. -/
theorem weight_eq (c : Dev nD) (i : S128x128.Idx) : weightArr m c i = argWeight m c i := by
  rw [weight_narrowed]
  rfl

set_option maxHeartbeats 2000000 in
/-- The bias row as launched is the bias vector recast, -/
theorem bias_recast (c : Dev nD) : biasArr m c = shapeCast S1x128 (argBias m c) shapeCasts_S128_S1x128 := by
  show V m c main_v23 = _
  dsimp only [V]
  simp only [hostOps0, hostOps0_1, hostOps0_2, List.flatten_cons, List.flatten_nil, List.append_nil, List.cons_append, List.nil_append]
  after_results_simp <;> rfl

/-- so its entry (0, q) is the vector's entry q. -/
theorem bias_eq (c : Dev nD) (q : Fin 128) : biasArr m c (ix2 (0 : Fin 1) q) = argBias m c (ix1 q) := by
  rw [bias_recast]
  exact shapeCast_a_1a_apply _ shapeCasts_S128_S1x128 (0 : Fin 1) q

end Cert.KernelIdeal.Combine

end
-- ==== Proof.CombineBridge.lean ====
/-
  The two results are one function of the arguments.

  The kernel's result array is `edgeUpdate` of the four arrays it was launched on; the reference's is
  (gathered node sums − gathered rectified edges) · Wᵀ + b. Entry (r, q) of either is

      ∑ k, (nodes[r, k] − max(edges[rev r, k], 0)) · W[q, k]  +  b[q]:

  the node sums are the same host term, the rectifier commutes with the gather, the reference's transposed weight
  matrix read at (k, q) is W[q, k], and both bias broadcasts read b[q]. No law of the extended reals beyond these
  readings is used, so the inputs' finiteness is never opened.
-/
import proofs.«108216_j9801115369511_1_alg».proof.Proof.CombineArray
import proofs.«108216_j9801115369511_1_alg».proof.Proof.CombineInputs

noncomputable section

namespace Cert.KernelIdeal.Combine

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ)

/-- The reference's result, as a function of the kernel program's arguments. -/
abbrev refResult (c : Dev nD) : FVec Ideal S500000x128 .f32 :=
  Cert.ReferenceIdeal.Read.val_main_v27 (F := Ideal) (argEdges m c) (argWeight m c) (argBias m c) (argEnds m c) (argRev m c)

/-- THE BRIDGE: the kernel's result array is the reference's result. -/
theorem result_eq (c : Dev nD) :
    edgeUpdate (nodeArr m c) (edgeArr m c) (weightArr m c) (biasArr m c) = refResult m c := by
  funext i
  refine Eq.trans ?_ (Cert.ReferenceIdeal.Read.val_main_v27_apply (F := Ideal) (argEdges m c) (argWeight m c) (argBias m c) (argEnds m c) (argRev m c) i).symm
  rw [Cert.ReferenceIdeal.Read.val_main_v24_apply, Cert.ReferenceIdeal.Read.val_main_v26_apply, Cert.ReferenceIdeal.Read.val_main_v25_apply, Ideal.addf_def]
  show (∑ k : Fin 128, (nodeArr m c (rowAt i k) - max (edgeArr m c (rowAt i k)) zeroWord) * weightArr m c (weightAt i k)) + biasArr m c (biasAt i) = _
  refine congrArg₂ (· + ·) (Finset.sum_congr rfl fun k _ => ?_) ?_
  · rw [Cert.ReferenceIdeal.Read.val_main_v22_apply, Cert.ReferenceIdeal.Read.val_main_v23_apply, Ideal.subf_def, node_eq, edge_eq, weight_eq]
    have hw : weightAt i k = Cert.ReferenceIdeal.Read.idx_main_v23 (Cert.ReferenceIdeal.Read.ridx_main_v24 i k) := by
      funext a
      match a with
      | ⟨0, _⟩ => rfl
      | ⟨1, _⟩ => rfl
    rw [hw]
    rfl
  · have hb : biasAt i = ix2 (0 : Fin 1) (⟨(i 1).val, (i 1).isLt⟩ : Fin 128) := by
      funext a
      match a with
      | ⟨0, _⟩ => rfl
      | ⟨1, _⟩ => rfl
    rw [hb, bias_eq]
    refine congrArg (argBias m c) ?_
    funext a
    match a with
    | ⟨0, _⟩ => rfl

end Cert.KernelIdeal.Combine

end
-- ==== Proof.lean ====
/-
  One directed message-passing step on a graph of 500000 edges and 50000 nodes with 128 features: rectify the edge
  features, sum them onto their destination nodes, gather the node sums back along the source nodes, subtract the
  rectified feature of each edge's reverse edge, and apply a linear layer,  out = (nodes[src] − relu(edges)[rev]) · Wᵀ + b.

  The kernel program does the sums and the two gathers on the host exactly as the reference does — except that it
  gathers the RAW reverse-edge features and rectifies them inside the kernel — and gives the subtraction and the
  linear layer to a grid of 100 points, each working on 5000 edge rows with the weight matrix narrowed to bf16.
  On the extended reals the narrowing is the identity, the matrix unit's product into a zero accumulator is the
  plain sum over the feature axis, and the rectifier commutes with a gather; so both programs end with the array
  whose entry (r, q) is  ∑ k, (nodes[src r, k] − max(edges[rev r, k], 0)) · W[q, k] + b[q].

  The steps: the kernel body's stored value at an entry (CombinePayload); every point writes its block of one
  whole-array function and the blocks tile the rows (CombineArray); the four arrays the grid reads as host terms of
  the arguments (CombineInputs); that whole-array function is the reference's result term (CombineBridge). The
  frames of the two kernel programs and the reference's run are the generated ones; the idealization rewrote no
  operation, so nothing is owed for it.
-/
import proofs.«108216_j9801115369511_1_alg».proof.Defs
import proofs.«108216_j9801115369511_1_alg».proof.Proof.Gen.Kernel
import proofs.«108216_j9801115369511_1_alg».proof.Proof.Gen.Kernel.Skeleton
import proofs.«108216_j9801115369511_1_alg».proof.Proof.Gen.Kernel.Launch
import proofs.«108216_j9801115369511_1_alg».proof.Proof.Gen.Kernel.Points
import proofs.«108216_j9801115369511_1_alg».proof.Proof.Gen.Kernel.Frame
import proofs.«108216_j9801115369511_1_alg».proof.Proof.Gen.KernelIdeal
import proofs.«108216_j9801115369511_1_alg».proof.Proof.Gen.KernelIdeal.Skeleton
import proofs.«108216_j9801115369511_1_alg».proof.Proof.Gen.KernelIdeal.Launch
import proofs.«108216_j9801115369511_1_alg».proof.Proof.Gen.KernelIdeal.Points
import proofs.«108216_j9801115369511_1_alg».proof.Proof.Gen.KernelIdeal.Frame
import proofs.«108216_j9801115369511_1_alg».proof.Proof.Gen.ReferenceIdeal
import proofs.«108216_j9801115369511_1_alg».proof.Proof.Gen.Pre_finite_inputs
import proofs.«108216_j9801115369511_1_alg».proof.Proof.Gen.KernelIdeal.Value
import proofs.«108216_j9801115369511_1_alg».proof.Proof.Gen.ReferenceIdeal.Run
import proofs.«108216_j9801115369511_1_alg».proof.Proof.Gen.ReferenceIdeal.Read
import proofs.«108216_j9801115369511_1_alg».proof.Proof.CombineBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the reference's result term of those
    arguments: the kernel's array by the bridge, the reference's by its run. -/
theorem algebraic : Cert.algebraic_KernelIdeal_ReferenceIdeal := by
  intro m ρ m' ρ' _ hagree
  refine ⟨fun c => Cert.KernelIdeal.Combine.refResult m c, ?_, ?_⟩
  · exact (θ_run Cert.KernelIdeal.defs _ _).mono
      (fun r h c => ⟨(h c).1.trans (Cert.KernelIdeal.Combine.result_eq m c), (h c).2⟩)
      (Cert.KernelIdeal.Combine.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v27_eq, h0, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
